-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x8192 : Shape := ⟨2, ![8192, 8192]⟩
abbrev S_ : Shape := ⟨0, ![]⟩

class Facts : Prop where
  bcast_S_S8192x8192 : S_.BroadcastsInDim S8192x8192 (![] : Fin 0 → Fin S8192x8192.rank)
  reducesTo_S8192x8192_S_d0_1 : S8192x8192.ReducesTo [0, 1] S_
  h_S_ : 0 < S_.numel

variable [Facts]

def fn {F : FTy → Type} [FloatOps F] (main_arg0 : FVec F S8192x8192 .f32) (main_arg1 : FVec F S8192x8192 .f32) : IVec S_ 1 :=
  let main_v0 : FVec F S8192x8192 .f32 := Host.absf main_arg0
  let main_cst : FVec F S_ .f32 := constant S_ .f32 0x7F800000#32
  let main_v1 : FVec F S8192x8192 .f32 := broadcastInDim S8192x8192 ![] bcast_S_S8192x8192 main_cst
  let main_v2 : IVec S8192x8192 1 := cmpf .olt main_v0 main_v1
  let main_c : IVec S_ 1 := constantI S_ 1 1#1
  let main_v3 : IVec S_ 1 := (fun x v => Host.reduce IntOp.andi x v reducesTo_S8192x8192_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  main_v8
-- ==== Kernel.lean ====
abbrev S8192x8192 : Shape := ⟨2, ![8192, 8192]⟩
abbrev S128x8192 : Shape := ⟨2, ![128, 8192]⟩
abbrev S128 : Shape := ⟨1, ![128]⟩
abbrev S128x1 : Shape := ⟨2, ![128, 1]⟩

abbrev nBuf : Space → Nat
  | .hbm => 3
  | .vmem => 6
  | .smem => 0
  | _ => 0

abbrev bufTy : (tb : Table) → Fin (tcTables nBuf tb) → BufTy
  | .hbm, ⟨0, _⟩ => ⟨S8192x8192, .f32⟩
  | .hbm, ⟨1, _⟩ => ⟨S8192x8192, .f32⟩
  | .hbm, ⟨2, _⟩ => ⟨S8192x8192, .f32⟩
  | .local _ .vmem, ⟨0, _⟩ => ⟨S128x8192, .f32⟩
  | .local _ .vmem, ⟨1, _⟩ => ⟨S128x8192, .f32⟩
  | .local _ .vmem, ⟨2, _⟩ => ⟨S128x8192, .f32⟩
  | .local _ .vmem, ⟨3, _⟩ => ⟨S128x8192, .f32⟩
  | .local _ .vmem, ⟨4, _⟩ => ⟨S128x8192, .f32⟩
  | .local _ .vmem, ⟨5, _⟩ => ⟨S128x8192, .f32⟩
  | _, _ => ⟨S8192x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x8192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S128x8192_S128x8192_0_0 : ∀ a, (![0, 0] : Fin 2 → Nat) a + S128x8192.size a ≤ S128x8192.size a
  h_S128x8192 : 0 < S128x8192.numel
  reduces_S128x8192_S128 : S128x8192.Reduces [1] S128
  shapeCasts_S128_S128x1 : S128.ShapeCasts S128x1
  broadcasts_S128x1_S128x8192 : S128x1.Broadcasts S128x8192
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x8192.size a ≤ S8192x8192.size a
  hwx0_0 : ∀ i : grid0.Coords, EltTy.bits .f32 = 32 ∨ (Rect.block (s := S8192x8192) S128x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x8192.size a ≤ S8192x8192.size a
  hwx0_1 : ∀ i : grid0.Coords, EltTy.bits .f32 = 32 ∨ (Rect.block (s := S8192x8192) S128x8192.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x8192.size a ≤ S8192x8192.size a
  hwx0_2 : ∀ i : grid0.Coords, EltTy.bits .f32 = 32 ∨ (Rect.block (s := S8192x8192) S128x8192.size (cc0_transform_2 i) (hinb0_2 i)).WholeWords (EltTy.packing .f32)

variable [Facts₀]

abbrev win0_0 : Pipeline.Window sig grid0 :=
  Pipeline.Window.ofSpec (Memref.whole main_arg0) S128x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x8192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S128x8192.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x8192 : Shape := ⟨2, ![8192, 8192]⟩
abbrev S_ : Shape := ⟨0, ![]⟩
abbrev S8192 : Shape := ⟨1, ![8192]⟩
abbrev S8192x1 : Shape := ⟨2, ![8192, 1]⟩

abbrev nBuf : Space → Nat
  | .hbm => 7
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S8192x8192, .f32⟩
  | .hbm, ⟨2, _⟩ => ⟨S_, .f32⟩
  | .hbm, ⟨3, _⟩ => ⟨S8192, .f32⟩
  | .hbm, ⟨4, _⟩ => ⟨S8192x1, .f32⟩
  | .hbm, ⟨5, _⟩ => ⟨S8192x8192, .f32⟩
  | .hbm, ⟨6, _⟩ => ⟨S8192x8192, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]

class Facts₀ : Prop where
  reducesTo_S8192x8192_S8192_d1 : S8192x8192.ReducesTo [1] S8192
  h_S_ : 0 < S_.numel
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)

variable [Facts₀]

class Facts : Prop extends Facts₀ where

variable [Facts]
-- ==== Proof.RowSumSpec.lean ====
/-
  The one function both programs compute, over the extended reals: every entry of `b` scaled by the sum of the
  same row of `a`,

      out[n, i] = b[n, i] · Σ_j a[n, j]      (n, i, j < 8192).

  The kernel forms the row sums 128 rows at a time and the reference all at once; a sum over the extended reals
  does not depend on how its rows are grouped, so both are this function and no finiteness of the inputs is used.
-/
import Idealize.ShloMosaic.PureOps.Ideal
import Idealize.ShloMosaic.Lib.ValueIdx

noncomputable section

namespace Cert.RowSumScale

open Idealize.ShloMosaic Idealize.ShloMosaic.ValueIdx

/-- `rowScaled a b` at `(n, i)` is `b[n, i]` times the sum over `j` of `a[n, j]`. -/
def rowScaled (a b : (⟨2, ![8192, 8192]⟩ : Shape).Idx → Elt Ideal .f32) :
    (⟨2, ![8192, 8192]⟩ : Shape).Idx → Elt Ideal .f32 :=
  fun i => b i * ∑ k : Fin 8192, a (ix2 (i 0) k)

theorem rowScaled_apply (a b : (⟨2, ![8192, 8192]⟩ : Shape).Idx → Elt Ideal .f32) (i : (⟨2, ![8192, 8192]⟩ : Shape).Idx) :
    rowScaled a b i = b i * ∑ k : Fin 8192, a (ix2 (i 0) k) := rfl

end Cert.RowSumScale

end
-- ==== Proof.KernelRows.lean ====
/-
  The kernel's result array, read whole. Grid point `t` (of 64) stages rows `128·t … 128·t + 127` of `a` and of
  `b`, sums each staged row of `a` along its 8192 lanes, multiplies the staged rows of `b` by those sums, and
  writes the product back to the same rows of the output. Each entry of the block a point writes is therefore the
  entry of `rowScaled a b` under it, and the 64 blocks tile the rows of the array, so the array ends as `rowScaled a b`.
-/
import proofs.«422388_j16810501997099_3_alg».proof.Proof.Gen.KernelIdeal.Value
import proofs.«422388_j16810501997099_3_alg».proof.Proof.RowSumSpec
import Idealize.ShloMosaic.PureOps.Ideal.Laws
import Idealize.ShloMosaic.Lib.ValueIdx
import Idealize.ShloMosaic.Lib.Pipeline.Value

noncomputable section

namespace Cert.KernelIdeal.RowSum

open Cert.KernelIdeal Cert.KernelIdeal.Gen Cert.KernelIdeal.Value Idealize.ShloMosaic Idealize.ShloMosaic.TcCoe Idealize.SL.Sem
open Idealize.ShloMosaic.ValueIdx Cert.RowSumScale
open Idealize.ShloMosaic.Pipeline (Dat)

variable (m : (ℓ : Loc nD τ sig) → Buf (Elt Ideal) ℓ) (ρ : Dev nD → PrngReg)

/-- The body reads and writes its staging buffers from their origin. -/
theorem origin : (![0, 0] : Fin 2 → Nat) = fun _ => 0 := funext fun a => by fin_cases a <;> rfl

/-! ## One block -/

/-- An entry of the block the body leaves, from the two staged blocks: the `b` entry times the lane sum of the
    `a` block's row. (`P0` is the `b` block, `P1` the `a` block.) -/
theorem block_entry (P0 P1 : Vec Ideal S128x8192 .f32) (y : S128x8192.Idx) :
    E2 (F := Ideal) P0 P1 y = P0 y * ∑ k : Fin 8192, P1 (ix2 (y 0) k) := by
  have e0 : ix2_0 y = y := funext fun a => Fin.ext (by match a with | ⟨0, _⟩ => rfl | ⟨1, _⟩ => rfl)
  show P0 (ix2_0 y) * multiReduction (F := Ideal) .add [1] S128 P1 0x00000000#32 reduces_S128x8192_S128 (.inl rfl) rfl (ix2_1 y) = _
  rw [e0]
  refine congrArg (P0 y * ·) ?_
  refine (Ideal.multiReduction_add_single P1 0x00000000#32 reduces_S128x8192_S128 (.inl rfl) rfl (ix2_1 y)).trans ?_
  refine Finset.sum_congr rfl fun k _ => congrArg P1 ?_
  funext a; apply Fin.ext
  match a with | ⟨0, _⟩ => rfl | ⟨1, _⟩ => rfl

/-- What the body leaves in the output's staging buffer, entry by entry, from the staged `a` block `x0` and
    `b` block `x1`. -/
theorem body_block (x0 x1 : Vec Ideal S128x8192 .f32) (y : S128x8192.Idx) :
    out0_2 (F := Ideal) x0 x1 y = x1 y * ∑ k : Fin 8192, x0 (ix2 (y 0) k) := by
  unfold out0_2
  simp only [View.ld_unit_zero (S := S128x8192) origin]
  exact (canon2_eq x1 x0 y).trans (block_entry x1 x0 y)

/-! ## Where a block sits -/

/-- The three index maps over the 64 grid points: point `t` stages block row `t`, block column `0`, of each array. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- The two argument arrays as the region finds them, and the blocks of them staged at point `t`. -/
abbrev aArr (c : Dev nD) : S8192x8192.Idx → Elt Ideal .f32 := V m c main_arg0
abbrev bArr (c : Dev nD) : S8192x8192.Idx → Elt Ideal .f32 := V m c main_arg1
abbrev aBlk (c : Dev nD) (t : Fin cfg0.N) : Vec Ideal S128x8192 .f32 := iblk m c 0 t
abbrev bBlk (c : Dev nD) (t : Fin cfg0.N) : Vec Ideal S128x8192 .f32 := iblk m c 1 t

/-- The array index under entry `y` of point `t`'s output block: row `128·t + y₀`, column `y₁`. -/
abbrev under (t : Fin cfg0.N) (y : S128x8192.Idx) : S8192x8192.Idx := ((cfg0.win 2).blk t).view.emb y

/-- The staged `b` block holds, at `y`, the entry of `b` under `y`. -/
theorem bBlk_apply (c : Dev nD) (t : Fin cfg0.N) (y : S128x8192.Idx) : bBlk m c t y = bArr m c (under t y) := by
  obtain ⟨a0, a1, b0, b1, o0, o1⟩ := idx_facts t
  show V m c main_arg1 (((cfg0.win 1).blk t).view.emb y) = V m c main_arg1 (((cfg0.win 2).blk t).view.emb y)
  refine congrArg _ ?_
  funext a; apply Fin.ext
  match a with
  | ⟨0, _⟩ => show win0_1.index t (0 : Fin 2) * 128 + 1 * (y 0).val = win0_2.index t (0 : Fin 2) * 128 + 1 * (y 0).val; omega
  | ⟨1, _⟩ => show win0_1.index t (1 : Fin 2) * 8192 + 1 * (y 1).val = win0_2.index t (1 : Fin 2) * 8192 + 1 * (y 1).val; omega

/-- The staged `a` block holds, in `y`'s row at lane `k`, the entry of `a` in the row under `y` at column `k`:
    a staged row is a whole row of the array. -/
theorem aBlk_row (c : Dev nD) (t : Fin cfg0.N) (y : S128x8192.Idx) (k : Fin 8192) :
    aBlk m c t (ix2 (y 0) k) = aArr m c (ix2 (under t y 0) k) := by
  obtain ⟨a0, a1, b0, b1, o0, o1⟩ := idx_facts t
  show V m c main_arg0 (((cfg0.win 0).blk t).view.emb (ix2 (y 0) k)) = V m c main_arg0 (ix2 ((((cfg0.win 2).blk t).view.emb y) 0) k)
  refine congrArg _ ?_
  funext a; apply Fin.ext
  match a with
  | ⟨0, _⟩ => show win0_0.index t (0 : Fin 2) * 128 + 1 * (y 0).val = win0_2.index t (0 : Fin 2) * 128 + 1 * (y 0).val; omega
  | ⟨1, _⟩ => show win0_0.index t (1 : Fin 2) * 8192 + 1 * k.val = k.val; omega

/-- What point `t` writes back is block `t` of `rowScaled a b`. -/
theorem flushed_eq (c : Dev nD) (t : Fin cfg0.N) :
    (dats m 0 c).flushed 2 t = ((cfg0.win 2).blk t).view.read (Elt Ideal) (rowScaled (aArr m c) (bArr m c)) := by
  rw [Value.flushed2]
  funext j
  show out0_2 (aBlk m c t) (bBlk m c t) j = rowScaled (aArr m c) (bArr m c) (under t j)
  rw [body_block (aBlk m c t) (bBlk m c t) j, rowScaled_apply, bBlk_apply]
  exact congrArg (_ * ·) (Finset.sum_congr rfl fun k _ => aBlk_row m c t j k)

/-! ## The blocks tile the array -/

/-- An array index is in point `t`'s block iff each coordinate is in the block's range on its axis. -/
theorem mem_blk (t : Fin cfg0.N) (i : S8192x8192.Idx) :
    i ∈ ((cfg0.win 2).blk t).view.set ↔ ∀ a : Fin 2, win0_2.index t a * S128x8192.size a ≤ (i a).val ∧ (i a).val < win0_2.index t a * S128x8192.size a + S128x8192.size a := by
  show i ∈ ((View.whole main_v0).slice (win0_2.rect t)).set ↔ _
  rw [View.set_slice_whole, Rect.mem_set_unit]
  exact Iff.rfl

/-- Row `n` of the array is written by point `n / 128`. -/
theorem cover (i : S8192x8192.Idx) :
    ∃ t : Fin cfg0.N, (cfg0.win 2).flush t = true ∧ i ∈ ((cfg0.win 2).blk t).view.set := by
  have hi0 : (i 0).val < 8192 := (i 0).isLt
  have hi1 : (i 1).val < 8192 := (i 1).isLt
  have hN : cfg0.N = 64 := N_0
  have ht : (i 0).val / 128 < cfg0.N := by rw [hN]; omega
  obtain ⟨-, -, -, -, o0, o1⟩ := idx_facts ⟨(i 0).val / 128, ht⟩
  refine ⟨⟨(i 0).val / 128, ht⟩, flush0_2 _, ?_⟩
  rw [mem_blk]
  intro a
  match a with
  | ⟨0, _⟩ =>
    show win0_2.index ⟨(i 0).val / 128, ht⟩ (0 : Fin 2) * 128 ≤ (i 0).val ∧ (i 0).val < win0_2.index ⟨(i 0).val / 128, ht⟩ (0 : Fin 2) * 128 + 128
    rw [o0]; show (i 0).val / 128 * 128 ≤ (i 0).val ∧ (i 0).val < (i 0).val / 128 * 128 + 128; omega
  | ⟨1, _⟩ =>
    show win0_2.index ⟨(i 0).val / 128, ht⟩ (1 : Fin 2) * 8192 ≤ (i 1).val ∧ (i 1).val < win0_2.index ⟨(i 0).val / 128, ht⟩ (1 : Fin 2) * 8192 + 8192
    rw [o1]; omega

/-! ## The array after the run -/

/-- The output array ends as `rowScaled a b` of the argument arrays. -/
theorem final (c : Dev nD) : (dats m 0 c).arrAt 2 cfg0.N = rowScaled (aArr m c) (bArr m c) :=
  (dats m 0 c).arrAt_eq_of_cover 2 (rowScaled (aArr m c) (bArr m c)) (fun t _ => flushed_eq m c t) cover

/-- Every weakly fair execution of the kernel's program ends with the result array at `rowScaled a b` and the
    arguments unchanged. -/
theorem run : θ_run defs (onTc (τ := τ) (main (F := Ideal))) ⟨m, fun _ => 0, ρ⟩ fun r => ∀ c : Dev nD,
      r.2.mem ((c : Thread nD τ).loc main_v0)
          = rowScaled (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.RowSum

end
-- ==== Proof.ReferenceRows.lean ====
/-
  The reference's result, read at an index. Its program sums each row of `a` from the initial value zero, lays the
  8192 sums out as a column, repeats the column across all 8192 columns, and multiplies `b` by the result entry by
  entry. At `(n, i)` that is `b[n, i] · (0 + Σ_j a[n, j])`, which is `rowScaled a b` at `(n, i)`.
-/
import proofs.«422388_j16810501997099_3_alg».proof.Proof.Gen.ReferenceIdeal.Read
import proofs.«422388_j16810501997099_3_alg».proof.Proof.RowSumSpec
import Idealize.ShloMosaic.PureOps.Ideal.Laws
import Idealize.ShloMosaic.Lib.ValueIdx

noncomputable section

namespace Cert.ReferenceIdeal.RowSum

open Cert.ReferenceIdeal Cert.ReferenceIdeal.Gen Cert.ReferenceIdeal.Read Idealize.ShloMosaic Idealize.ShloMosaic.TcCoe Idealize.SL.Sem
open Idealize.ShloMosaic.ValueIdx Cert.RowSumScale

/-- Through the two broadcasts, entry `(n, i)` reads the sum of row `n`; lane `k` of that sum reads `a[n, k]`. -/
theorem row_index (i : S8192x8192.Idx) (k : Fin 8192) :
    idx_main_v0 (idx_main_v1 (idx_main_v2 i)) k = ix2 (i 0) k :=
  funext fun a => Fin.ext (by match a with | ⟨0, _⟩ => rfl | ⟨1, _⟩ => rfl)

/-- The reference's last stage is `rowScaled` of its two arguments. -/
theorem result_eq (x0 x1 : (⟨S8192x8192, .f32⟩ : BufTy).Contents (Elt Ideal)) :
    val_main_v3 (F := Ideal) x0 x1 = rowScaled x0 x1 := by
  funext i
  rw [val_main_v3_apply, val_main_v2_apply, val_main_v1_apply, val_main_v0_apply, val_main_cst_apply, rowScaled_apply]
  show x1 i * (Ideal.ofBits .f32 0x00000000#32 + ∑ k : Fin 8192, x0 (idx_main_v0 (idx_main_v1 (idx_main_v2 i)) k))
      = x1 i * ∑ k : Fin 8192, x0 (ix2 (i 0) k)
  rw [Ideal.ofBits_zero_f32, zero_add]
  exact congrArg (x1 i * ·) (Finset.sum_congr rfl fun k _ => congrArg x0 (row_index i k))

end Cert.ReferenceIdeal.RowSum

end
-- ==== Proof.lean ====
/-
  The kernel computes  out[n, i] = b[n, i] · Σ_j a[n, j]  over two 8192 × 8192 arrays, 128 rows per grid point:
  each point sums the 8192 lanes of every staged row of `a`, starting from zero, and multiplies the staged rows of
  `b` by those sums. The reference sums every row of `a` from zero in one reduction, broadcasts the 8192 sums
  across the columns and multiplies `b` by them. Over the extended reals both are the function `rowScaled a b`:
  a row's sum does not depend on which block of rows it was computed in, and `0 + s = s`. No law that fails at
  an infinity is used, so the finiteness of the inputs is never opened.

  The kernel's side is the generated value leg (what each grid point writes back, as one function of its two
  staged blocks) read at an index and carried from the 64 blocks to the whole array, which the blocks tile row
  range by row range. The reference's side is its generated run, read one operation at a time at an index. The
  three frame claims are the generated frames and the reference's run; the idealization rewrote nothing, so
  there is nothing to preserve.
-/
import proofs.«422388_j16810501997099_3_alg».proof.Defs
import proofs.«422388_j16810501997099_3_alg».proof.Proof.Gen.Kernel
import proofs.«422388_j16810501997099_3_alg».proof.Proof.Gen.Kernel.Skeleton
import proofs.«422388_j16810501997099_3_alg».proof.Proof.Gen.Kernel.Launch
import proofs.«422388_j16810501997099_3_alg».proof.Proof.Gen.Kernel.Points
import proofs.«422388_j16810501997099_3_alg».proof.Proof.Gen.Kernel.Frame
import proofs.«422388_j16810501997099_3_alg».proof.Proof.Gen.KernelIdeal
import proofs.«422388_j16810501997099_3_alg».proof.Proof.Gen.KernelIdeal.Skeleton
import proofs.«422388_j16810501997099_3_alg».proof.Proof.Gen.KernelIdeal.Launch
import proofs.«422388_j16810501997099_3_alg».proof.Proof.Gen.KernelIdeal.Points
import proofs.«422388_j16810501997099_3_alg».proof.Proof.Gen.KernelIdeal.Frame
import proofs.«422388_j16810501997099_3_alg».proof.Proof.Gen.ReferenceIdeal
import proofs.«422388_j16810501997099_3_alg».proof.Proof.Gen.Pre_finite_inputs
import proofs.«422388_j16810501997099_3_alg».proof.Proof.Gen.KernelIdeal.Value
import proofs.«422388_j16810501997099_3_alg».proof.Proof.Gen.ReferenceIdeal.Run
import proofs.«422388_j16810501997099_3_alg».proof.Proof.Gen.ReferenceIdeal.Read
import proofs.«422388_j16810501997099_3_alg».proof.Proof.RowSumSpec
import proofs.«422388_j16810501997099_3_alg».proof.Proof.KernelRows
import proofs.«422388_j16810501997099_3_alg».proof.Proof.ReferenceRows
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference runs and leaves its arguments unchanged: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs, from memories that agree on `a` and `b`, end with their result arrays at `rowScaled a b`. -/
theorem algebraic : Cert.algebraic_KernelIdeal_ReferenceIdeal := by
  intro m ρ m' ρ' _ hagree
  refine ⟨_, Cert.KernelIdeal.RowSum.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v3_eq, Cert.ReferenceIdeal.RowSum.result_eq, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
